-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x96 : Shape := ⟨2, ![256, 96]⟩
abbrev S96 : Shape := ⟨1, ![96]⟩
abbrev S96x40 : Shape := ⟨2, ![96, 40]⟩
abbrev S40 : Shape := ⟨1, ![40]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x96 : S_.BroadcastsInDim S256x96 (![] : Fin 0 → Fin S256x96.rank)
  reducesTo_S256x96_S_d0_1 : S256x96.ReducesTo [0, 1] S_
  bcast_S_S96 : S_.BroadcastsInDim S96 (![] : Fin 0 → Fin S96.rank)
  reducesTo_S96_S_d0 : S96.ReducesTo [0] S_
  bcast_S_S96x40 : S_.BroadcastsInDim S96x40 (![] : Fin 0 → Fin S96x40.rank)
  reducesTo_S96x40_S_d0_1 : S96x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S96x40 1) : IVec S_ 1 :=
  let main_c_5 : IVec S_ 1 := constantI S_ 1 1#1
  let main_v17 : IVec S_ 1 := (fun x v => Host.reduce IntOp.andi x v reducesTo_S96x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x96 .f32) (main_arg3 : FVec F S96 .f32) (main_arg4 : FVec F S96x40 .f32) (main_arg5 : FVec F S40 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x96 .f32 := Host.absf main_arg2
  let main_cst_0 : FVec F S_ .f32 := constant S_ .f32 0x7F800000#32
  let main_v5 : FVec F S256x96 .f32 := broadcastInDim S256x96 ![] bcast_S_S256x96 main_cst_0
  let main_v6 : IVec S256x96 1 := cmpf .olt main_v4 main_v5
  let main_c_1 : IVec S_ 1 := constantI S_ 1 1#1
  let main_v7 : IVec S_ 1 := (fun x v => Host.reduce IntOp.andi x v reducesTo_S256x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x40 .f32 := Host.absf main_arg4
  let main_cst_4 : FVec F S_ .f32 := constant S_ .f32 0x7F800000#32
  let main_v15 : FVec F S96x40 .f32 := broadcastInDim S96x40 ![] bcast_S_S96x40 main_cst_4
  let main_v16 : IVec S96x40 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x96 : Shape := ⟨2, ![256, 96]⟩
abbrev S96 : Shape := ⟨1, ![96]⟩
abbrev S96x40 : Shape := ⟨2, ![96, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S5000x256 : Shape := ⟨2, ![5000, 256]⟩
abbrev S5000x96 : Shape := ⟨2, ![5000, 96]⟩
abbrev S850000x96 : Shape := ⟨2, ![850000, 96]⟩
abbrev S1x96 : Shape := ⟨2, ![1, 96]⟩
abbrev S50000x40 : Shape := ⟨2, ![50000, 40]⟩
abbrev S5000x40 : Shape := ⟨2, ![5000, 40]⟩
abbrev S850000x40 : Shape := ⟨2, ![850000, 40]⟩
abbrev S1x40 : Shape := ⟨2, ![1, 40]⟩

abbrev nBuf : Space → Nat
  | .hbm => 89
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x96, .f32⟩
  | .hbm, ⟨3, _⟩ => ⟨S96, .f32⟩
  | .hbm, ⟨4, _⟩ => ⟨S96x40, .f32⟩
  | .hbm, ⟨5, _⟩ => ⟨S40, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x96, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x96, .f32⟩
  | .hbm, ⟨56, _⟩ => ⟨S850000x1, .f32⟩
  | .hbm, ⟨57, _⟩ => ⟨S850000x96, .f32⟩
  | .hbm, ⟨58, _⟩ => ⟨S850000x96, .f32⟩
  | .hbm, ⟨59, _⟩ => ⟨S_, .f32⟩
  | .hbm, ⟨60, _⟩ => ⟨S50000x96, .f32⟩
  | .hbm, ⟨61, _⟩ => ⟨S850000x1, .i32⟩
  | .hbm, ⟨62, _⟩ => ⟨S50000x96, .f32⟩
  | .hbm, ⟨63, _⟩ => ⟨S1x96, .f32⟩
  | .hbm, ⟨64, _⟩ => ⟨S50000x96, .f32⟩
  | .hbm, ⟨65, _⟩ => ⟨S50000x96, .f32⟩
  | .hbm, ⟨66, _⟩ => ⟨S_, .f32⟩
  | .hbm, ⟨67, _⟩ => ⟨S50000x96, .f32⟩
  | .hbm, ⟨68, _⟩ => ⟨S50000x96, .f32⟩
  | .hbm, ⟨69, _⟩ => ⟨S50000x40, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x40, .f32⟩
  | .hbm, ⟨79, _⟩ => ⟨S850000x1, .f32⟩
  | .hbm, ⟨80, _⟩ => ⟨S850000x40, .f32⟩
  | .hbm, ⟨81, _⟩ => ⟨S850000x40, .f32⟩
  | .hbm, ⟨82, _⟩ => ⟨S_, .f32⟩
  | .hbm, ⟨83, _⟩ => ⟨S50000x40, .f32⟩
  | .hbm, ⟨84, _⟩ => ⟨S850000x1, .i32⟩
  | .hbm, ⟨85, _⟩ => ⟨S50000x40, .f32⟩
  | .hbm, ⟨86, _⟩ => ⟨S1x40, .f32⟩
  | .hbm, ⟨87, _⟩ => ⟨S50000x40, .f32⟩
  | .hbm, ⟨88, _⟩ => ⟨S50000x40, .f32⟩
  | .local _ .vmem, ⟨0, _⟩ => ⟨S5000x256, .f32⟩
  | .local _ .vmem, ⟨1, _⟩ => ⟨S5000x256, .f32⟩
  | .local _ .vmem, ⟨2, _⟩ => ⟨S256x96, .f32⟩
  | .local _ .vmem, ⟨3, _⟩ => ⟨S5000x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S96x40, .f32⟩
  | .local _ .vmem, ⟨8, _⟩ => ⟨S5000x40, .f32⟩
  | .local _ .vmem, ⟨9, _⟩ => ⟨S5000x40, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x96_S256x96_0_0 : ∀ a, (![0, 0] : Fin 2 → Nat) a + S256x96.size a ≤ S256x96.size a
  h_S256x96 : 0 < S256x96.numel
  inb_S5000x96_S5000x96_0_0 : ∀ a, (![0, 0] : Fin 2 → Nat) a + S5000x96.size a ≤ S5000x96.size a
  h_S5000x96 : 0 < S5000x96.numel
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  shapeCasts_S5000x96_S5000x96 : S5000x96.ShapeCasts S5000x96
  inb_S96x40_S96x40_0_0 : ∀ a, (![0, 0] : Fin 2 → Nat) a + S96x40.size a ≤ S96x40.size a
  h_S96x40 : 0 < S96x40.numel
  inb_S5000x40_S5000x40_0_0 : ∀ a, (![0, 0] : Fin 2 → Nat) a + S5000x40.size a ≤ S5000x40.size a
  h_S5000x40 : 0 < S5000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x96_S5000x96_1_0_0_1_n_n_wf : DotDims.WF S5000x256 S256x96 S5000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S5000x96_S96x40_S5000x40_1_0_0_1_n_n_wf : DotDims.WF S5000x96 S96x40 S5000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x96.size a ≤ S256x96.size a
  hwx0_1 : ∀ i : grid0.Coords, EltTy.bits .f32 = 32 ∨ (Rect.block (s := S256x96) S256x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x40.size a ≤ S96x40.size a
  hwx1_1 : ∀ i : grid1.Coords, EltTy.bits .f32 = 32 ∨ (Rect.block (s := S96x40) S96x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x40.size a ≤ S50000x40.size a
  hwx1_2 : ∀ i : grid1.Coords, EltTy.bits .f32 = 32 ∨ (Rect.block (s := S50000x40) S5000x40.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x96_S5000x96_1_0_0_1_n_n : DotDims S5000x256 S256x96 S5000x96 where
  lhsContracting := [1]
  rhsContracting := [0]
  lhsNonContracting := [0]
  rhsNonContracting := [1]
  lhsBatch := []
  rhsBatch := []
  wf := dot_S5000x256_S256x96_S5000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S5000x96_S96x40_S5000x40_1_0_0_1_n_n : DotDims S5000x96 S96x40 S5000x40 where
  lhsContracting := [1]
  rhsContracting := [0]
  lhsNonContracting := [0]
  rhsNonContracting := [1]
  lhsBatch := []
  rhsBatch := []
  wf := dot_S5000x96_S96x40_S5000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S96x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x96 : Shape := ⟨2, ![256, 96]⟩
abbrev S96 : Shape := ⟨1, ![96]⟩
abbrev S96x40 : Shape := ⟨2, ![96, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S850000x96 : Shape := ⟨2, ![850000, 96]⟩
abbrev S1x96 : Shape := ⟨2, ![1, 96]⟩
abbrev S50000x40 : Shape := ⟨2, ![50000, 40]⟩
abbrev S850000x40 : Shape := ⟨2, ![850000, 40]⟩
abbrev S1x40 : Shape := ⟨2, ![1, 40]⟩

abbrev nBuf : Space → Nat
  | .hbm => 89
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x96, .f32⟩
  | .hbm, ⟨3, _⟩ => ⟨S96, .f32⟩
  | .hbm, ⟨4, _⟩ => ⟨S96x40, .f32⟩
  | .hbm, ⟨5, _⟩ => ⟨S40, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x96, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x96, .f32⟩
  | .hbm, ⟨56, _⟩ => ⟨S850000x1, .f32⟩
  | .hbm, ⟨57, _⟩ => ⟨S850000x96, .f32⟩
  | .hbm, ⟨58, _⟩ => ⟨S850000x96, .f32⟩
  | .hbm, ⟨59, _⟩ => ⟨S_, .f32⟩
  | .hbm, ⟨60, _⟩ => ⟨S50000x96, .f32⟩
  | .hbm, ⟨61, _⟩ => ⟨S850000x1, .i32⟩
  | .hbm, ⟨62, _⟩ => ⟨S50000x96, .f32⟩
  | .hbm, ⟨63, _⟩ => ⟨S1x96, .f32⟩
  | .hbm, ⟨64, _⟩ => ⟨S50000x96, .f32⟩
  | .hbm, ⟨65, _⟩ => ⟨S50000x96, .f32⟩
  | .hbm, ⟨66, _⟩ => ⟨S_, .f32⟩
  | .hbm, ⟨67, _⟩ => ⟨S50000x96, .f32⟩
  | .hbm, ⟨68, _⟩ => ⟨S50000x96, .f32⟩
  | .hbm, ⟨69, _⟩ => ⟨S50000x40, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x40, .f32⟩
  | .hbm, ⟨79, _⟩ => ⟨S850000x1, .f32⟩
  | .hbm, ⟨80, _⟩ => ⟨S850000x40, .f32⟩
  | .hbm, ⟨81, _⟩ => ⟨S850000x40, .f32⟩
  | .hbm, ⟨82, _⟩ => ⟨S_, .f32⟩
  | .hbm, ⟨83, _⟩ => ⟨S50000x40, .f32⟩
  | .hbm, ⟨84, _⟩ => ⟨S850000x1, .i32⟩
  | .hbm, ⟨85, _⟩ => ⟨S50000x40, .f32⟩
  | .hbm, ⟨86, _⟩ => ⟨S1x40, .f32⟩
  | .hbm, ⟨87, _⟩ => ⟨S50000x40, .f32⟩
  | .hbm, ⟨88, _⟩ => ⟨S50000x40, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x96_S50000x96_1_0_0_1_n_n_wf : DotDims.WF S50000x256 S256x96 S50000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x40_S50000x40_1_0_0_1_n_n_wf : DotDims.WF S50000x96 S96x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x96_S50000x96_1_0_0_1_n_n : DotDims S50000x256 S256x96 S50000x96 where
  lhsContracting := [1]
  rhsContracting := [0]
  lhsNonContracting := [0]
  rhsNonContracting := [1]
  lhsBatch := []
  rhsBatch := []
  wf := dot_S50000x256_S256x96_S50000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x40_S50000x40_1_0_0_1_n_n : DotDims S50000x96 S96x40 S50000x40 where
  lhsContracting := [1]
  rhsContracting := [0]
  lhsNonContracting := [0]
  rhsNonContracting := [1]
  lhsBatch := []
  rhsBatch := []
  wf := dot_S50000x96_S96x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.FirstProduct.lean ====
/-
  The first dense layer's product, as the kernel computes it.

  The first pallas_call walks a grid of 10 points. At point t it fetches rows 5000·t … 5000·t + 4999 of the
  [50000, 256] feature array X and the whole [256, 96] weight matrix W, multiplies them on the matrix unit into
  a zero accumulator (both operands first narrowed to bf16, which on the extended reals changes nothing), and
  writes the [5000, 96] product back as rows 5000·t … of the [50000, 96] result. Entry (r, q) of that block is
  ∑ k, X (5000·t + r, k) · W (k, q): entry (5000·t + r, q) of the whole product X · W. The ten blocks tile
  the result, so after the region the result array is the host's dot_general of the two arrays as the
  region found them, whatever those contents are.
-/
import proofs.«114841_j20263655703368_1_alg».proof.Proof.Gen.KernelIdeal.Frame
import proofs.«114841_j20263655703368_1_alg».proof.Proof.LibPlainDot
import Idealize.ShloMosaic.Lib.Pipeline.Value
import Idealize.ShloMosaic.Lib.ValueIdx

set_option maxRecDepth 16384

noncomputable section

open scoped BigOperators

namespace Cert.KernelIdeal.FirstProduct

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffer contents the region is entered with: any
variable (V : (c : Dev nD) → (b : Ref sig .tc) → Buf (Elt Ideal) ((c : Thread nD τ).loc b))

theorem origin : (![0, 0] : Fin 2 → Nat) = fun _ => 0 := funext fun a => by fin_cases a <;> rfl

/-- The whole product X · W of a [50000, 256] array with a [256, 96] matrix, as the host computes it. -/
abbrev whole (d : DotDims S50000x256 S256x96 S50000x96) (X : FVec Ideal S50000x256 .f32) (W : FVec Ideal S256x96 .f32) :
    FVec Ideal S50000x96 .f32 := Host.dotGeneral (F := Ideal) d none X W

/-- Entry (p, q) of what the body stores: the sum over the 256 feature columns of the row block's entry times the
    weight's. The narrowing to bf16 is the identity on the extended reals and the accumulator starts at zero. -/
theorem stored_apply (x : Vec Ideal S5000x256 .f32) (w : Vec Ideal S256x96 .f32) (p : Fin 5000) (q : Fin 96) :
    k0_pay1 (F := Ideal) x w (ix2 p q) = ∑ k : Fin 256, x (ix2 p k) * w (ix2 k q) := by
  unfold k0_pay1
  exact Cert.PlainDot.matmul_zero_apply dot_S5000x256_S256x96_S5000x96_1_0_0_1_n_n rfl none _ _ (ix2 p q)

/-- The three index maps over the grid: the feature window and the result window sit on row block t, column
    block 0; the weight window stays on block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block of the result is some point's. -/
theorem index_onto : ∀ r : Fin 10, ∃ t : Fin cfg0.N, win0_2.index t = ![r.val, 0] :=
  (by decide +kernel : ∀ r : Fin 10, ∃ t : Fin grid0.N, win0_2.index t = ![r.val, 0])

/-- What point t writes back is block t of the whole product: at entry (p, q) of the block both are
    ∑ k, X (5000·t + p, k) · W (k, q) — the feature block's row p is the array's row 5000·t + p, the weight block is
    the whole matrix, and the result block's entry (p, q) lies at (5000·t + p, q). -/
theorem block_written (d : DotDims S50000x256 S256x96 S50000x96) (hd : d = DotDims.plain 50000 256 96) (c : Dev nD) (t : Fin cfg0.N) :
    (dat0 (F := Ideal) V c).flushed 2 t
      = ((cfg0.win 2).blk t).view.read (Elt Ideal) (whole d (V c main_arg0) (V c main_arg2)) := by
  show (cfg0.win 2).cut (grid0.coords t) ((dat0 V c).after 2 t) = _
  rw [after0_2]
  unfold out0_2
  rw [View.canon_unit_zero origin]
  simp only [View.ld_unit_zero (S := S5000x256) origin, View.ld_unit_zero (S := S256x96) origin]
  funext j
  obtain ⟨p, q, rfl⟩ : ∃ (p : Fin 5000) (q : Fin 96), j = ix2 p q := ⟨j 0, j 1, eq_ix2 j⟩
  show k0_pay1 (F := Ideal) (iblk0 V c 0 t) (iblk0 V c 1 t) (ix2 p q)
    = Host.dotGeneral (F := Ideal) d none (V c main_arg0) (V c main_arg2) (((cfg0.win 2).blk t).view.emb (ix2 p q))
  refine (stored_apply _ _ p q).trans ?_
  refine Eq.trans ?_ (Cert.PlainDot.dotGeneral_apply d hd none .single (V c main_arg0) (V c main_arg2) _).symm
  refine Finset.sum_congr rfl fun k _ => ?_
  obtain ⟨e00, e01, e10, e11, e20, e21⟩ := index_facts t
  have hx : iblk0 V c 0 t (ix2 p k) = V c main_arg0 (ix2 ((((cfg0.win 2).blk t).view.emb (ix2 p q)) 0) k) := by
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  have hw : iblk0 V c 1 t (ix2 k q) = V c main_arg2 (ix2 k ((((cfg0.win 2).blk t).view.emb (ix2 p q)) 1)) := by
    show V c main_arg2 (((cfg0.win 1).blk t).view.emb (ix2 k q)) = _
    refine congrArg (V c main_arg2) ?_
    funext a; apply Fin.ext
    match a with
    | ⟨0, _⟩ => show win0_1.index t (0 : Fin 2) * 256 + 1 * k.val = k.val; omega
    | ⟨1, _⟩ => show win0_1.index t (1 : Fin 2) * 96 + 1 * q.val = win0_2.index t (1 : Fin 2) * 96 + 1 * q.val; omega
  rw [hx, hw]

/-- An index of the result array is in point t's block iff each coordinate is in the block's range on its axis. -/
theorem mem_block (t : Fin cfg0.N) (i : S50000x96.Idx) :
    i ∈ ((cfg0.win 2).blk t).view.set ↔ ∀ a : Fin 2, win0_2.index t a * S5000x96.size a ≤ (i a).val ∧ (i a).val < win0_2.index t a * S5000x96.size a + S5000x96.size a := by
  show i ∈ ((View.whole main_v30).slice (win0_2.rect t)).set ↔ _
  rw [View.set_slice_whole, Rect.mem_set_unit]
  exact Iff.rfl

/-- The ten blocks tile the result: row r lies in the block of the point on row block r / 5000. -/
theorem covered (i : S50000x96.Idx) : ∃ t : Fin cfg0.N, (cfg0.win 2).flush t = true ∧ i ∈ ((cfg0.win 2).blk t).view.set := by
  have hi0 : (i 0).val < 50000 := (i 0).isLt
  have hi1 : (i 1).val < 96 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 96 ≤ (i 1).val ∧ (i 1).val < win0_2.index t (1 : Fin 2) * 96 + 96; omega

/-- After the region its result array holds the whole product of the feature array and the weight matrix as the
    region found them. -/
theorem product (d : DotDims S50000x256 S256x96 S50000x96) (hd : d = DotDims.plain 50000 256 96) (c : Dev nD) :
    (dat0 (F := Ideal) V c).arrAt 2 cfg0.N = whole d (V c main_arg0) (V c main_arg2) :=
  (dat0 V c).arrAt_eq_of_cover 2 (whole d (V c main_arg0) (V c main_arg2)) (fun t _ => block_written V d hd c t) covered

end Cert.KernelIdeal.FirstProduct

end
-- ==== Proof.SecondProduct.lean ====
/-
  The second dense layer's product, as the kernel computes it.

  The second pallas_call walks a grid of 10 points. At point t it fetches rows 5000·t … 5000·t + 4999 of the
  [50000, 96] hidden array H (the first layer's output after its rectifier) and the whole [96, 40] weight matrix W,
  multiplies them on the matrix unit into a zero accumulator (the row block first cast to its own shape, then both
  operands narrowed to bf16: neither changes a value on the extended reals), and writes the [5000, 40] product
  back as rows 5000·t … of the [50000, 40] result. Entry (r, q) of that block is ∑ k, H (5000·t + r, k) · W (k, q):
  entry (5000·t + r, q) of the whole product H · W. The ten blocks tile the result, so after the region the
  result array is the host's dot_general of the two arrays as the region found them.
-/
import proofs.«114841_j20263655703368_1_alg».proof.Proof.Gen.KernelIdeal.Frame
import proofs.«114841_j20263655703368_1_alg».proof.Proof.LibPlainDot
import Idealize.ShloMosaic.Lib.Pipeline.Value
import Idealize.ShloMosaic.Lib.ValueIdx

set_option maxRecDepth 16384

noncomputable section

open scoped BigOperators

namespace Cert.KernelIdeal.SecondProduct

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffer contents the region is entered with: any
variable (V : (c : Dev nD) → (b : Ref sig .tc) → Buf (Elt Ideal) ((c : Thread nD τ).loc b))

theorem origin : (![0, 0] : Fin 2 → Nat) = fun _ => 0 := funext fun a => by fin_cases a <;> rfl

/-- The whole product H · W of a [50000, 96] array with a [96, 40] matrix, as the host computes it. -/
abbrev whole (d : DotDims S50000x96 S96x40 S50000x40) (H : FVec Ideal S50000x96 .f32) (W : FVec Ideal S96x40 .f32) :
    FVec Ideal S50000x40 .f32 := Host.dotGeneral (F := Ideal) d none H W

/-- Entry (p, q) of what the body stores: the sum over the 96 hidden columns of the row block's entry times the
    weight's. The cast of the block to its own shape and the narrowing to bf16 are identities on the extended reals,
    and the accumulator starts at zero. -/
theorem stored_apply (x : Vec Ideal S5000x96 .f32) (w : Vec Ideal S96x40 .f32) (p : Fin 5000) (q : Fin 40) :
    k1_pay1 (F := Ideal) x w (ix2 p q) = ∑ k : Fin 96, x (ix2 p k) * w (ix2 k q) := by
  unfold k1_pay1
  refine (Cert.PlainDot.matmul_zero_apply dot_S5000x96_S96x40_S5000x40_1_0_0_1_n_n rfl none _ _ (ix2 p q)).trans ?_
  refine Finset.sum_congr rfl fun k _ => ?_
  show shapeCast S5000x96 x shapeCasts_S5000x96_S5000x96 (ix2 p k) * w (ix2 k q) = x (ix2 p k) * w (ix2 k q)
  rw [shapeCast_self]

/-- The three index maps over the grid: the hidden window and the result window sit on row block t, column
    block 0; the weight window stays on block (0, 0). -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every row block of the result is some point's. -/
theorem index_onto : ∀ r : Fin 10, ∃ t : Fin cfg1.N, win1_2.index t = ![r.val, 0] :=
  (by decide +kernel : ∀ r : Fin 10, ∃ t : Fin grid1.N, win1_2.index t = ![r.val, 0])

/-- What point t writes back is block t of the whole product: at entry (p, q) of the block both are
    ∑ k, H (5000·t + p, k) · W (k, q) — the hidden block's row p is the array's row 5000·t + p, the weight block is
    the whole matrix, and the result block's entry (p, q) lies at (5000·t + p, q). -/
theorem block_written (d : DotDims S50000x96 S96x40 S50000x40) (hd : d = DotDims.plain 50000 96 40) (c : Dev nD) (t : Fin cfg1.N) :
    (dat1 (F := Ideal) V c).flushed 2 t
      = ((cfg1.win 2).blk t).view.read (Elt Ideal) (whole d (V c main_v47) (V c main_arg4)) := by
  show (cfg1.win 2).cut (grid1.coords t) ((dat1 V c).after 2 t) = _
  rw [after1_2]
  unfold out1_2
  rw [View.canon_unit_zero origin]
  simp only [View.ld_unit_zero (S := S5000x96) origin, View.ld_unit_zero (S := S96x40) origin]
  funext j
  obtain ⟨p, q, rfl⟩ : ∃ (p : Fin 5000) (q : Fin 40), j = ix2 p q := ⟨j 0, j 1, eq_ix2 j⟩
  show k1_pay1 (F := Ideal) (iblk1 V c 0 t) (iblk1 V c 1 t) (ix2 p q)
    = Host.dotGeneral (F := Ideal) d none (V c main_v47) (V c main_arg4) (((cfg1.win 2).blk t).view.emb (ix2 p q))
  refine (stored_apply _ _ p q).trans ?_
  refine Eq.trans ?_ (Cert.PlainDot.dotGeneral_apply d hd none .single (V c main_v47) (V c main_arg4) _).symm
  refine Finset.sum_congr rfl fun k _ => ?_
  obtain ⟨e00, e01, e10, e11, e20, e21⟩ := index_facts t
  have hx : iblk1 V c 0 t (ix2 p k) = V c main_v47 (ix2 ((((cfg1.win 2).blk t).view.emb (ix2 p q)) 0) k) := by
    show V c main_v47 (((cfg1.win 0).blk t).view.emb (ix2 p k)) = _
    refine congrArg (V c main_v47) ?_
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 96 + 1 * k.val = k.val; omega
  have hw : iblk1 V c 1 t (ix2 k q) = V c main_arg4 (ix2 k ((((cfg1.win 2).blk t).view.emb (ix2 p q)) 1)) := by
    show V c main_arg4 (((cfg1.win 1).blk t).view.emb (ix2 k q)) = _
    refine congrArg (V c main_arg4) ?_
    funext a; apply Fin.ext
    match a with
    | ⟨0, _⟩ => show win1_1.index t (0 : Fin 2) * 96 + 1 * k.val = k.val; omega
    | ⟨1, _⟩ => show win1_1.index t (1 : Fin 2) * 40 + 1 * q.val = win1_2.index t (1 : Fin 2) * 40 + 1 * q.val; omega
  rw [hx, hw]

/-- An index of the result array is in point t's block iff each coordinate is in the block's range on its axis. -/
theorem mem_block (t : Fin cfg1.N) (i : S50000x40.Idx) :
    i ∈ ((cfg1.win 2).blk t).view.set ↔ ∀ a : Fin 2, win1_2.index t a * S5000x40.size a ≤ (i a).val ∧ (i a).val < win1_2.index t a * S5000x40.size a + S5000x40.size a := by
  show i ∈ ((View.whole main_v48).slice (win1_2.rect t)).set ↔ _
  rw [View.set_slice_whole, Rect.mem_set_unit]
  exact Iff.rfl

/-- The ten blocks tile the result: row r lies in the block of the point on row block r / 5000. -/
theorem covered (i : S50000x40.Idx) : ∃ t : Fin cfg1.N, (cfg1.win 2).flush t = true ∧ i ∈ ((cfg1.win 2).blk t).view.set := by
  have hi0 : (i 0).val < 50000 := (i 0).isLt
  have hi1 : (i 1).val < 40 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 40 ≤ (i 1).val ∧ (i 1).val < win1_2.index t (1 : Fin 2) * 40 + 40; omega

/-- After the region its result array holds the whole product of the hidden array and the weight matrix as the
    region found them. -/
theorem product (d : DotDims S50000x96 S96x40 S50000x40) (hd : d = DotDims.plain 50000 96 40) (c : Dev nD) :
    (dat1 (F := Ideal) V c).arrAt 2 cfg1.N = whole d (V c main_v47) (V c main_arg4) :=
  (dat1 V c).arrAt_eq_of_cover 2 (whole d (V c main_v47) (V c main_arg4)) (fun t _ => block_written V d hd c t) covered

end Cert.KernelIdeal.SecondProduct

end
-- ==== Proof.Layers.lean ====
/-
  The two-layer graph convolution as ONE function of the six argument arrays.

  Edges: row 0 of the [2, 800000] edge list are the source nodes, row 1 the target nodes; each is followed by
  the 50000 nodes themselves, one self-loop per node (850000 edges in all). A node's degree counts the edges that
  point at it (a scatter-add of ones at the targets); its normalisation is 1/sqrt(degree) where the degree is positive
  and 0 elsewhere; an edge's weight is the product of its two ends' normalisations (each end looked up with jnp's
  wrap of a negative index by the node count).
  A layer takes node rows Z (already multiplied by the layer's weight matrix): every edge carries its source's row
  of Z, scaled by the edge's weight, to its target, where the rows are summed (a scatter-add), and the bias row is
  added to every node. The network is layer 2 of (the rectifier of layer 1 of X · W1) · W2.
  Both programs compute exactly these host operations around their two dense products; this module only names
  them. Everything is stated for any float family.
-/
import proofs.«114841_j20263655703368_1_alg».proof.ReferenceIdeal
import proofs.«114841_j20263655703368_1_alg».proof.Proof.Gen.ReferenceIdeal

noncomputable section

namespace Cert.Network

open Cert.ReferenceIdeal Cert.ReferenceIdeal.Gen Idealize.ShloMosaic Idealize.ShloMosaic.TcCoe

variable {F : FTy → Type} [FloatOps F]

/-- The edges' source nodes: row 0 of the edge list, then every node once. -/
def sources (ei : (⟨S2x800000, .i32⟩ : BufTy).Contents (Elt F)) : (⟨S850000, .i32⟩ : BufTy).Contents (Elt F) :=
  concatenate S850000 0 [⟨S800000, shapeCast S800000 (extractStridedSlice S1x800000 ![0, 0] ei slices_S2x800000_S1x800000_0_0) shapeCasts_S1x800000_S800000⟩, ⟨S50000, iotaInDim S50000 32 0⟩] concatenates_S800000_S50000_S850000_d0

/-- The edges' target nodes: row 1 of the edge list, then every node once. -/
def targets (ei : (⟨S2x800000, .i32⟩ : BufTy).Contents (Elt F)) : (⟨S850000, .i32⟩ : BufTy).Contents (Elt F) :=
  concatenate S850000 0 [⟨S800000, shapeCast S800000 (extractStridedSlice S1x800000 ![1, 0] ei slices_S2x800000_S1x800000_1_0) shapeCasts_S1x800000_S800000⟩, ⟨S50000, iotaInDim S50000 32 0⟩] concatenates_S800000_S50000_S850000_d0

/-- A node's degree: one for every edge that points at it. -/
def degree (t : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32))
    (broadcastInDim S850000x1 ![0] bcast_S850000_S850000x1_0 t) (broadcastInDim S850000 ![] bcast_S_S850000 (constant S_ .f32 0x3F800000#32))

/-- 1/sqrt(degree) where the degree is positive, 0 elsewhere. -/
def normalisation (deg : (⟨S50000, .f32⟩ : BufTy).Contents (Elt F)) : (⟨S50000, .f32⟩ : BufTy).Contents (Elt F) :=
  select (cmpf (F := F) .ogt deg (broadcastInDim S50000 ![] bcast_S_S50000 (constant S_ .f32 0x00000000#32))) (Host.rsqrt deg)
    (broadcastInDim S50000 ![] bcast_S_S50000 (id (constant S_ .f32 0x00000000#32)))

/-- jnp's reading of a node index: a negative one counts from the end. -/
def wrapped (ix : (⟨S850000, .i32⟩ : BufTy).Contents (Elt F)) : (⟨S850000, .i32⟩ : BufTy).Contents (Elt F) :=
  select (cmpi .slt ix (broadcastInDim S850000 ![] bcast_S_S850000 (constantI S_ 32 0#32)))
    (addi ix (broadcastInDim S850000 ![] bcast_S_S850000 (constantI S_ 32 50000#32))) ix

/-- A per-node number looked up at every edge's end. -/
def atEnds (v : (⟨S50000, .f32⟩ : BufTy).Contents (Elt F)) (ix : (⟨S850000, .i32⟩ : BufTy).Contents (Elt F)) :
    (⟨S850000, .f32⟩ : BufTy).Contents (Elt F) :=
  Host.gather gather_S50000_S850000x1_S850000_n_0_n_n_0_1_1 v (broadcastInDim S850000x1 ![0] bcast_S850000_S850000x1_0 (wrapped ix))

/-- An edge's weight: the product of its two ends' normalisations. -/
def edgeWeights (s t : (⟨S850000, .i32⟩ : BufTy).Contents (Elt F)) : (⟨S850000, .f32⟩ : BufTy).Contents (Elt F) :=
  mulf (atEnds (normalisation (degree t)) s) (atEnds (normalisation (degree t)) t)

/-- Layer 1's aggregation of 96-wide node rows: each edge carries its source's row, scaled, to its target; the
    rows arriving at a node are summed and the bias row added. -/
def aggregate96 (s t : (⟨S850000, .i32⟩ : BufTy).Contents (Elt F)) (ew : (⟨S850000, .f32⟩ : BufTy).Contents (Elt F))
    (b : (⟨S96, .f32⟩ : BufTy).Contents (Elt F)) (z : (⟨S50000x96, .f32⟩ : BufTy).Contents (Elt F)) : (⟨S50000x96, .f32⟩ : BufTy).Contents (Elt F) :=
  addf (Host.scatterAdd scatter_S50000x96_S850000x1_S850000x96_1_0_0_1 (broadcastInDim S50000x96 ![] bcast_S_S50000x96 (constant S_ .f32 0x00000000#32))
      (broadcastInDim S850000x1 ![0] bcast_S850000_S850000x1_0 t)
      (mulf (Host.gather gather_S50000x96_S850000x1_S850000x96_1_0_n_n_0_1_196 z (broadcastInDim S850000x1 ![0] bcast_S850000_S850000x1_0 (wrapped s)))
        (broadcastInDim S850000x96 ![0, 1] bcast_S850000x1_S850000x96_0_1 (broadcastInDim S850000x1 ![0] bcast_S850000_S850000x1_0 ew))))
    (broadcastInDim S50000x96 ![0, 1] bcast_S1x96_S50000x96_0_1 (broadcastInDim S1x96 ![1] bcast_S96_S1x96_1 b))

/-- The rectifier between the layers. -/
def rectified (z : (⟨S50000x96, .f32⟩ : BufTy).Contents (Elt F)) : (⟨S50000x96, .f32⟩ : BufTy).Contents (Elt F) :=
  maximumf z (broadcastInDim S50000x96 ![] bcast_S_S50000x96 (constant S_ .f32 0x00000000#32))

/-- Layer 2's aggregation of 40-wide node rows. -/
def aggregate40 (s t : (⟨S850000, .i32⟩ : BufTy).Contents (Elt F)) (ew : (⟨S850000, .f32⟩ : BufTy).Contents (Elt F))
    (b : (⟨S40, .f32⟩ : BufTy).Contents (Elt F)) (z : (⟨S50000x40, .f32⟩ : BufTy).Contents (Elt F)) : (⟨S50000x40, .f32⟩ : BufTy).Contents (Elt F) :=
  addf (Host.scatterAdd scatter_S50000x40_S850000x1_S850000x40_1_0_0_1 (broadcastInDim S50000x40 ![] bcast_S_S50000x40 (constant S_ .f32 0x00000000#32))
      (broadcastInDim S850000x1 ![0] bcast_S850000_S850000x1_0 t)
      (mulf (Host.gather gather_S50000x40_S850000x1_S850000x40_1_0_n_n_0_1_140 z (broadcastInDim S850000x1 ![0] bcast_S850000_S850000x1_0 (wrapped s)))
        (broadcastInDim S850000x40 ![0, 1] bcast_S850000x1_S850000x40_0_1 (broadcastInDim S850000x1 ![0] bcast_S850000_S850000x1_0 ew))))
    (broadcastInDim S50000x40 ![0, 1] bcast_S1x40_S50000x40_0_1 (broadcastInDim S1x40 ![1] bcast_S40_S1x40_1 b))

/-- The whole network: layer 2 of the rectified layer 1. -/
def network (x : (⟨S50000x256, .f32⟩ : BufTy).Contents (Elt F)) (ei : (⟨S2x800000, .i32⟩ : BufTy).Contents (Elt F))
    (w1 : (⟨S256x96, .f32⟩ : BufTy).Contents (Elt F)) (b1 : (⟨S96, .f32⟩ : BufTy).Contents (Elt F))
    (w2 : (⟨S96x40, .f32⟩ : BufTy).Contents (Elt F)) (b2 : (⟨S40, .f32⟩ : BufTy).Contents (Elt F)) : (⟨S50000x40, .f32⟩ : BufTy).Contents (Elt F) :=
  aggregate40 (sources ei) (targets ei) (edgeWeights (sources ei) (targets ei)) b2
    (Host.dotGeneral dot_S50000x96_S96x40_S50000x40_1_0_0_1_n_n none
      (rectified (aggregate96 (sources ei) (targets ei) (edgeWeights (sources ei) (targets ei)) b1
        (Host.dotGeneral dot_S50000x256_S256x96_S50000x96_1_0_0_1_n_n none x w1))) w2)

end Cert.Network

end
-- ==== Proof.KernelValue.lean ====
/-
  What the kernel's run leaves in its result array, as the network function of the argument arrays.

  The kernel's @main is three stretches of host operations with a pallas_call after the first and after the
  second. Each pallas_call changes exactly one buffer, its result array, and leaves there the host's dot_general of
  its two input arrays (the two product modules); every other buffer, its own inputs included, it leaves as it found
  it. So on the extended reals a region acts on the buffer contents exactly as the one host operation
  "result := dot_general (left, right)" would, and the whole run's contents are those of a straight line of host
  operations: the reference's own list. Read at the result buffer, that line is the network function.
-/
import proofs.«114841_j20263655703368_1_alg».proof.Proof.Gen.KernelIdeal.Frame
import proofs.«114841_j20263655703368_1_alg».proof.Proof.FirstProduct
import proofs.«114841_j20263655703368_1_alg».proof.Proof.SecondProduct
import proofs.«114841_j20263655703368_1_alg».proof.Proof.Layers
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]

/-- The first dense product as a host operation: the result array takes the dot_general of the feature array and the
    first weight matrix. -/
abbrev product0 : HloOp τ sig (Elt F) :=
  binary main_arg0 main_arg2 main_v30 ((fun l r => Host.dotGeneral Cert.ReferenceIdeal.dot_S50000x256_S256x96_S50000x96_1_0_0_1_n_n none l r) : (⟨S50000x256, .f32⟩ : BufTy).Contents (Elt F) → (⟨S256x96, .f32⟩ : BufTy).Contents (Elt F) → (⟨S50000x96, .f32⟩ : BufTy).Contents (Elt F))

/-- The second dense product as a host operation: the result array takes the dot_general of the hidden array and the
    second weight matrix. -/
abbrev product1 : HloOp τ sig (Elt F) :=
  binary main_v47 main_arg4 main_v48 ((fun l r => Host.dotGeneral Cert.ReferenceIdeal.dot_S50000x96_S96x40_S50000x40_1_0_0_1_n_n none l r) : (⟨S50000x96, .f32⟩ : BufTy).Contents (Elt F) → (⟨S96x40, .f32⟩ : BufTy).Contents (Elt F) → (⟨S50000x40, .f32⟩ : BufTy).Contents (Elt F))

set_option maxHeartbeats 40000000 in
/-- The three stretches of host operations with the two products in the regions' places, run from contents X and
    read at the result buffer, are the network function of X at the six argument buffers. -/
theorem line_value (X : Valuation τ sig (Elt F)) :
    after hostOps2 ((product1 (F := F)).result (after hostOps1_1 (after hostOps1 ((product0 (F := F)).result
      (after hostOps0_2 (after hostOps0_1 (after hostOps0 X))))))) (Proc.devRef .tc main_v64)
    = Cert.Network.network (F := F) (X (Proc.devRef .tc main_arg0)) (X (Proc.devRef .tc main_arg1)) (X (Proc.devRef .tc main_arg2))
        (X (Proc.devRef .tc main_arg3)) (X (Proc.devRef .tc main_arg4)) (X (Proc.devRef .tc main_arg5)) := by
  dsimp only [hostOps0, hostOps0_1, hostOps0_2, hostOps1, hostOps1_1, hostOps2, product0, product1]
  after_results_simp
  rfl

/-! ## A region acts on the buffer contents as its product's host operation (on the extended reals) -/

section AtIdeal

variable (m : (ℓ : Loc nD τ sig) → Buf (Elt Ideal) ℓ) (ρ : Dev nD → PrngReg)

/-- Region 0's exit contents are the first product's operation applied to its entry contents: the result array at
    the whole product, the two input arrays and every buffer outside the pipeline as entered. -/
theorem exit0 (c : Dev nD) : W4 (F := Ideal) m ρ c = (product0 (F := Ideal)).result (W3 m ρ c) := by
  funext b
  by_cases h2 : b = Proc.devRef .tc main_v30
  · subst h2
    rw [binary_result]
    exact (W4_arr m ρ c 2).trans (Cert.KernelIdeal.FirstProduct.product (V3 m ρ) _ rfl c)
  · rw [HloOp.result_of_not_mem _ _ (by rw [binary_writes, Finset.mem_singleton]; exact h2)]
    by_cases h0 : b = Proc.devRef .tc main_arg0
    · subst h0
      exact (W4_arr m ρ c 0).trans (((dat0 (V3 m ρ) c).arrAt_in 0 rfl _).trans (A_eq0 (V3 m ρ) c 0))
    · by_cases h1 : b = Proc.devRef .tc main_arg2
      · subst h1
        exact (W4_arr m ρ c 1).trans (((dat0 (V3 m ρ) c).arrAt_in 1 rfl _).trans (A_eq0 (V3 m ρ) c 1))
      · unfold W4 Pipeline.withArrays
        rw [dif_neg]
        rintro ⟨w, e⟩
        match w with
        | ⟨0, _⟩ => exact h0 e.symm
        | ⟨1, _⟩ => exact h1 e.symm
        | ⟨2, _⟩ => exact h2 e.symm

/-- Region 1's exit contents are the second product's operation applied to its entry contents. -/
theorem exit1 (c : Dev nD) : W7 (F := Ideal) m ρ c = (product1 (F := Ideal)).result (W6 m ρ c) := by
  funext b
  by_cases h2 : b = Proc.devRef .tc main_v48
  · subst h2
    rw [binary_result]
    exact (W7_arr m ρ c 2).trans (Cert.KernelIdeal.SecondProduct.product (V6 m ρ) _ rfl c)
  · rw [HloOp.result_of_not_mem _ _ (by rw [binary_writes, Finset.mem_singleton]; exact h2)]
    by_cases h0 : b = Proc.devRef .tc main_v47
    · subst h0
      exact (W7_arr m ρ c 0).trans (((dat1 (V6 m ρ) c).arrAt_in 0 rfl _).trans (A_eq1 (V6 m ρ) c 0))
    · by_cases h1 : b = Proc.devRef .tc main_arg4
      · subst h1
        exact (W7_arr m ρ c 1).trans (((dat1 (V6 m ρ) c).arrAt_in 1 rfl _).trans (A_eq1 (V6 m ρ) c 1))
      · unfold W7 Pipeline.withArrays
        rw [dif_neg]
        rintro ⟨w, e⟩
        match w with
        | ⟨0, _⟩ => exact h0 e.symm
        | ⟨1, _⟩ => exact h1 e.symm
        | ⟨2, _⟩ => exact h2 e.symm

/-- THE KERNEL'S RESULT: the last boundary's contents at the result buffer are the network function of the six
    argument arrays as launched. -/
theorem value (c : Dev nD) :
    W8 (F := Ideal) m ρ c (Proc.devRef .tc main_v64)
      = Cert.Network.network (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  show after hostOps2 (W7 m ρ c) (Proc.devRef .tc main_v64) = _
  rw [exit1 m ρ c]
  show after hostOps2 ((product1 (F := Ideal)).result (after hostOps1_1 (after hostOps1 (W4 m ρ c)))) (Proc.devRef .tc main_v64) = _
  rw [exit0 m ρ c]
  exact line_value (F := Ideal) (W0 m ρ c)

end AtIdeal

end Cert.KernelIdeal.Fold

end
-- ==== Proof.RefValue.lean ====
/-
  The reference's result is the network function of its argument arrays.

  The reference's run ends with its result buffer at the composed term of its 83 host operations over the launch
  contents of the six argument buffers. That term is, operation for operation, the network function of the
  specification: the two programs differ from it only in how the names are cut.
-/
import proofs.«114841_j20263655703368_1_alg».proof.Proof.RefRun
import proofs.«114841_j20263655703368_1_alg».proof.Proof.Layers

set_option maxRecDepth 16384

noncomputable section

namespace Cert.ReferenceIdeal.Composed

open Cert.ReferenceIdeal Cert.ReferenceIdeal.Gen Idealize.ShloMosaic Idealize.ShloMosaic.TcCoe Idealize.SL.Sem

variable {F : FTy → Type} [FloatOps F]

/-- The run's composed term, with the repeated sub-terms named, is the network function. -/
theorem value (m : (ℓ : Loc nD τ sig) → Buf (Elt F) ℓ) (c : Dev nD) :
    Cert.ReferenceIdeal.RunP.res_main_v64 (F := F) m c
      = Cert.Network.network (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.RunP.res_main_v64
  rfl

end Cert.ReferenceIdeal.Composed

end
-- ==== Proof.lean ====
/-
  A two-layer graph convolution: the kernel against its jnp reference, over the extended reals.

  Both programs build the same normalised adjacency from the edge list (self-loops added, an edge weighted by
  1/sqrt of the degrees of its two ends) and apply two layers "multiply the node rows by a weight matrix, carry
  each source's row along its edge scaled by the edge's weight, sum at the target, add the bias", with a rectifier
  between them. They differ in one thing only: the reference multiplies by each weight matrix with one host
  dot_general, the kernel with a pallas_call that walks the 50000 node rows in ten blocks of 5000, each block a
  matrix-unit product into a zero accumulator of operands narrowed to bf16. On the extended reals the narrowing is
  the identity and a block of rows of a product is the product of that block of rows, so each pallas_call leaves
  exactly the host's dot_general in its result array, and both programs compute one function of the six
  argument arrays — the network function of the specification. No law of arithmetic is needed beyond reading both
  products as the same sums, so the precondition (finite inputs) is never opened.

  The frames of the two kernel programs are the generated ones; the reference's frame is its run with the result
  dropped; the ideal pass rewrote nothing, so preserves is trivial.
-/
import proofs.«114841_j20263655703368_1_alg».proof.Defs
import proofs.«114841_j20263655703368_1_alg».proof.Proof.Gen.Kernel
import proofs.«114841_j20263655703368_1_alg».proof.Proof.Gen.Kernel.Skeleton
import proofs.«114841_j20263655703368_1_alg».proof.Proof.Gen.Kernel.Launch
import proofs.«114841_j20263655703368_1_alg».proof.Proof.Gen.Kernel.Points
import proofs.«114841_j20263655703368_1_alg».proof.Proof.Gen.Kernel.Frame
import proofs.«114841_j20263655703368_1_alg».proof.Proof.Gen.KernelIdeal
import proofs.«114841_j20263655703368_1_alg».proof.Proof.Gen.KernelIdeal.Skeleton
import proofs.«114841_j20263655703368_1_alg».proof.Proof.Gen.KernelIdeal.Launch
import proofs.«114841_j20263655703368_1_alg».proof.Proof.Gen.KernelIdeal.Points
import proofs.«114841_j20263655703368_1_alg».proof.Proof.Gen.KernelIdeal.Frame
import proofs.«114841_j20263655703368_1_alg».proof.Proof.Gen.ReferenceIdeal
import proofs.«114841_j20263655703368_1_alg».proof.Proof.Gen.Pre_finite_inputs
import proofs.«114841_j20263655703368_1_alg».proof.Proof.KernelRun
import proofs.«114841_j20263655703368_1_alg».proof.Proof.KernelValue
import proofs.«114841_j20263655703368_1_alg».proof.Proof.RefRun
import proofs.«114841_j20263655703368_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.RunP.run (F := Ideal) m ρ)

/-- The ideal pass rewrote no operation. -/
theorem preserves : Cert.preserves_Kernel_KernelIdeal := trivial

/-- The idealized kernel's run ends with its result array at the network function of its argument arrays: the run
    names the result at the last boundary's contents, and those are the network function. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v64)
          = Cert.Network.network (F := Ideal)
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono (fun _ h c => ⟨(h c).1.trans (Cert.KernelIdeal.Fold.value m ρ c), (h c).2⟩)
    (Cert.KernelIdeal.RunP.run (F := Ideal) m ρ)

/-- From memories that agree on the six arguments both runs end with the result at the network function of those
    arguments: the kernel's by its regions read as host products, the reference's by its composed term. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.Composed.value, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
